-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x2048x1024 .f32) (main_arg1 : FVec F S8x4096x1024 .f32) (main_arg2 : FVec F S8x4096 .f32) (main_arg3 : FVec F S8x4096x1024 .f32) (main_arg4 : FVec F S8x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x1x4096 : Shape := ⟨3, ![8, 1, 4096]⟩
abbrev S8x1x1024 : Shape := ⟨3, ![8, 1, 1024]⟩
abbrev S1x512x1024 : Shape := ⟨3, ![1, 512, 1024]⟩
abbrev S1x1x512 : Shape := ⟨3, ![1, 1, 512]⟩
abbrev S1x1x1024 : Shape := ⟨3, ![1, 1, 1024]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x1x4096, .f32⟩
  | .hbm, ⟨6, _⟩ => ⟨S8x1x1024, .f32⟩
  | .hbm, ⟨7, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x4096_S8x1x4096 : S8x4096.ShapeCasts S8x1x4096
  shapeCasts_S8x1024_S8x1x1024 : S8x1024.ShapeCasts S8x1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S512x512 : S1x512.Broadcasts S512x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x2048x4096 : Shape := ⟨3, ![8, 2048, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x2048x4096, .f32⟩
  | .hbm, ⟨6, _⟩ => ⟨S8x1x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S8x2048x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Pieces.lean ====
/-
  What the body leaves behind at one grid point, as plain values.

  The body keeps a [512, 1024] accumulator across the eight hidden tiles of one (expert, row tile). At every point it
  adds to the accumulator the product of the rectified hidden slab with the matching slab of the second weight; at the
  first hidden tile it first overwrites the accumulator with zeros, and at the last one it also writes the accumulator
  plus the second bias into the output block. Each of the three control cases therefore leaves the accumulator at the
  "accumulate" payload of the point's four input blocks over what the accumulator held (zeros in the first case), and
  the last case leaves the output block at the "add bias" payload of that new accumulator. Every store covers its whole
  buffer and every load reads a whole buffer, so the pieces read back are the payloads themselves.
-/
import proofs.«153027_j75402445849115_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Zero offsets, spelt as the printed rectangles spell them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle hidden tile: the accumulator ends at the accumulate payload over what it held. -/
theorem scratch_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0_0 i) (hc1 : ¬cond0_1 i) (x0 : Vec F S1x512x1024 .f32) (x1 : Vec F S1x512x1024 .f32) (x2 : Vec F S1x1x512 .f32) (x3 : Vec F S1x512x1024 .f32) (x4 : Vec F S1x1x1024 .f32) (xs0 : Vec F S512x1024 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x512x1024) hz3, View.ld_unit_zero (S := S1x1x512) hz3, View.ld_unit_zero (S := S1x1x1024) hz3,
    View.ld_unit_zero (S := S512x1024) hz2, View.readCov_unit_zero (S := S512x1024) _ hz2]

/-- The last hidden tile: the accumulator ends at the same payload … -/
theorem scratch_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0_0 i) (hc1 : cond0_1 i) (x0 : Vec F S1x512x1024 .f32) (x1 : Vec F S1x512x1024 .f32) (x2 : Vec F S1x1x512 .f32) (x3 : Vec F S1x512x1024 .f32) (x4 : Vec F S1x1x1024 .f32) (xs0 : Vec F S512x1024 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x512x1024) hz3, View.ld_unit_zero (S := S1x1x512) hz3, View.ld_unit_zero (S := S1x1x1024) hz3,
    View.ld_unit_zero (S := S512x1024) hz2, View.readCov_unit_zero (S := S512x1024) _ hz2]

/-- … and the output block at that new accumulator plus the second bias row. -/
theorem out_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S512x1024 .f32) (harg9 : arg9.IsWhole) (hc0 : ¬cond0_0 i) (hc1 : cond0_1 i) (x0 : Vec F S1x512x1024 .f32) (x1 : Vec F S1x512x1024 .f32) (x2 : Vec F S1x1x512 .f32) (x3 : Vec F S1x512x1024 .f32) (x4 : Vec F S1x1x1024 .f32) (xs0 : Vec F S512x1024 .f32) :
    out0_C_5 c i arg3 harg3 arg4 harg4 arg5 harg5 arg6 harg6 arg7 harg7 arg8 harg8 arg9 harg9 hc0 hc1 x0 x1 x2 x3 x4 xs0 = k0_pay3 x4 (k0_pay2 x0 x1 x2 x3 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg7.read_unread, harg9.read_unread,
    View.ld_unit_zero (S := S1x512x1024) hz3, View.ld_unit_zero (S := S1x1x512) hz3, View.ld_unit_zero (S := S1x1x1024) hz3,
    View.ld_unit_zero (S := S512x1024) hz2, View.readCov_unit_zero (S := S512x1024) _ hz2]

/-- The first hidden tile: the accumulator is zeroed, read back, and ends at the payload over the zeros. -/
theorem scratch_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S1x512x1024 .f32) (harg8 : arg8.IsWhole) (arg9 : Memref sig .tc .vmem S512x1024 .f32) (harg9 : arg9.IsWhole) (hc0 : cond0_0 i) (hc1 : ¬cond0_1 i) (x0 : Vec F S1x512x1024 .f32) (x1 : Vec F S1x512x1024 .f32) (x2 : Vec F S1x1x512 .f32) (x3 : Vec F S1x512x1024 .f32) (x4 : Vec F S1x1x1024 .f32) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x1024) hz2]
  simp only [View.readAt_eq_ld, harg3.read_unread, harg4.read_unread, harg5.read_unread, harg6.read_unread, harg7.read_unread, harg9.read_unread,
    View.ld_unit_zero (S := S1x512x1024) hz3, View.ld_unit_zero (S := S1x1x512) hz3, View.ld_unit_zero (S := S1x1x1024) hz3,
    View.ld_unit_zero (S := S512x1024) hz2, View.readCov_unit_zero (S := S512x1024) _ hz2]

end Cert.KernelIdeal.Pieces

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibMatmulNT.lean ====
/-
  A matrix product that contracts the LAST axis of both operands, read at an index. For dimension numbers that contract
  axis 1 of an [M, K] left operand with axis 1 of an [N, K] right operand (no batch axes) — the left operand times the
  transpose of the right one — a matrix-unit product into the zero accumulator, over the extended reals, has at (p, q)
  the sum over k of left (p, k) times right (q, k): row p of the left operand against row q of the right operand.
-/
import Idealize.ShloMosaic.Lib.ValueIdx
import Idealize.ShloMosaic.PureOps.Ideal.Laws

noncomputable section

namespace Cert.LibMatmulNT

open Idealize.ShloMosaic Idealize.ShloMosaic.ValueIdx

variable {M K N : Nat}

/-- The dimension numbers of a product contracting both operands' axis 1, as a record over its well-formedness evidence. -/
abbrev ntDims (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

variable (wf : DotDims.WF (⟨2, ![M, K]⟩ : Shape) ⟨2, ![N, K]⟩ ⟨2, ![M, N]⟩ [1] [1] [0] [0] [] [])

/-- The left operand's row axis reads the result's row coordinate. -/
theorem lhs_axis0 (j : (⟨2, ![M, N]⟩ : Shape).Idx) (q : (ntDims wf).contr.Idx) :
    ((ntDims wf).lhsIdx j q 0).val = (j 0).val := by
  unfold DotDims.lhsIdx
  rw [dif_neg (show ¬(0 : Fin (⟨2, ![M, K]⟩ : Shape).rank) ∈ (ntDims wf).lhsBatch from List.not_mem_nil),
    dif_pos (show (0 : Fin (⟨2, ![M, K]⟩ : Shape).rank) ∈ (ntDims wf).lhsNonContracting from List.mem_singleton.mpr rfl)]
  rfl
/-- The left operand's contracted axis reads the contraction coordinate. -/
theorem lhs_axis1 (j : (⟨2, ![M, N]⟩ : Shape).Idx) (q : (ntDims wf).contr.Idx) :
    ((ntDims wf).lhsIdx j q 1).val = (q ⟨0, Nat.one_pos⟩).val :=
  (ntDims wf).lhsIdx_val_of_single rfl j q
/-- The right operand's row axis reads the result's COLUMN coordinate: the right operand enters transposed. -/
theorem rhs_axis0 (j : (⟨2, ![M, N]⟩ : Shape).Idx) (q : (ntDims wf).contr.Idx) :
    ((ntDims wf).rhsIdx j q 0).val = (j 1).val := by
  unfold DotDims.rhsIdx
  rw [dif_neg (show ¬(0 : Fin (⟨2, ![N, K]⟩ : Shape).rank) ∈ (ntDims wf).rhsBatch from List.not_mem_nil),
    dif_pos (show (0 : Fin (⟨2, ![N, K]⟩ : Shape).rank) ∈ (ntDims wf).rhsNonContracting from List.mem_singleton.mpr rfl)]
  rfl
/-- The right operand's contracted axis reads the contraction coordinate. -/
theorem rhs_axis1 (j : (⟨2, ![M, N]⟩ : Shape).Idx) (q : (ntDims wf).contr.Idx) :
    ((ntDims wf).rhsIdx j q 1).val = (q ⟨0, Nat.one_pos⟩).val :=
  (ntDims wf).rhsIdx_val_of_single rfl j q

/-- THE PRODUCT AT (p, q), into the zero accumulator: the sum over the shared last coordinate. -/
theorem matmul_zero_nt_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (ntDims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k := funext fun a => Fin.ext (by
    match a with
    | ⟨0, _⟩ => exact lhs_axis0 wf _ _
    | ⟨1, _⟩ => exact (lhs_axis1 wf _ _).trans hk)
  have er : (ntDims wf).rhsIdx (ix2 p q) ((contrEquiv1 (ntDims wf) K rfl rfl).symm k) = ix2 q k := funext fun a => Fin.ext (by
    match a with
    | ⟨0, _⟩ => exact rhs_axis0 wf _ _
    | ⟨1, _⟩ => exact (rhs_axis1 wf _ _).trans hk)
  rw [el, er]

end Cert.LibMatmulNT

end
-- ==== Proof.Payload.lean ====
/-
  The body's three payloads read at an index, over the extended reals.

  Narrowing to bf16 is the identity there and a matrix-unit product into the zero accumulator is a plain sum, so:
  the reset payload is the zero word everywhere; the accumulate payload at (r, d) is the old accumulator there plus the
  sum over the tile's 512 hidden units j of  max (x-row r · w1-row j + b1 j) 0  times  w2 (j, d); and the output
  payload at (r, d) is the accumulator there plus the second bias at d.
-/
import proofs.«153027_j75402445849115_1_alg».proof.Proof.Gen.KernelIdeal.Skeleton
import proofs.«153027_j75402445849115_1_alg».proof.Proof.LibMatmulPlain
import proofs.«153027_j75402445849115_1_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The zero both clamps and sums start from, as the body spells it. -/
abbrev zeroWord : EReal := Ideal.ofBits .f32 0x00000000#32

/-- Hidden unit j of the tile on row r of the row tile: the first product, the first bias, the clamp. -/
def hid (xb wb : Vec Ideal S1x512x1024 .f32) (bb : Vec Ideal S1x1x512 .f32) (r j : Fin 512) : EReal :=
  max ((∑ k : Fin 1024, xb (ix3 (0 : Fin 1) r k) * wb (ix3 (0 : Fin 1) j k)) + bb (ix3 (0 : Fin 1) (0 : Fin 1) j)) zeroWord

/-- The reset payload is the zero word at every index. -/
theorem reset_apply (i : S512x1024.Idx) : k0_pay1 (F := Ideal) i = zeroWord := by
  unfold k0_pay1
  rw [shapeCast_self]
  rfl

/-- The accumulate payload at (r, d). -/
theorem accumulate_apply (xb wb : Vec Ideal S1x512x1024 .f32) (bb : Vec Ideal S1x1x512 .f32) (vb : Vec Ideal S1x512x1024 .f32)
    (acc : Vec Ideal S512x1024 .f32) (r : Fin 512) (d : Fin 1024) :
    k0_pay2 xb wb bb vb acc (ix2 r d) = acc (ix2 r d) + ∑ j : Fin 512, hid xb wb bb r j * vb (ix3 (0 : Fin 1) j d) := by
  unfold k0_pay2
  rw [shapeCast_self, addf_apply]
  refine congrArg (acc (ix2 r d) + ·) ?_
  refine (Cert.LibMatmulPlain.matmul_zero_plain_apply Facts₀.dot_S512x512_S512x1024_S512x1024_1_0_0_1_n_n_wf none _ _ r d).trans ?_
  refine Finset.sum_congr rfl fun j _ => ?_
  rw [truncf_apply, truncf_apply, shapeCast_1ab_ab_apply, maximumf_apply, addf_apply, broadcast_apply,
    broadcastTo_1b_ab_apply, shapeCast_a_1a_apply, shapeCast_11a_a_apply]
  unfold hid
  refine congrArg (fun z : EReal => max (z + bb (ix3 (0 : Fin 1) (0 : Fin 1) j)) zeroWord * vb (ix3 (0 : Fin 1) j d)) ?_
  refine (Cert.LibMatmulNT.matmul_zero_nt_apply Facts₀.dot_S512x1024_S512x1024_S512x512_1_1_0_0_n_n_wf none _ _ r j).trans ?_
  refine Finset.sum_congr rfl fun k _ => ?_
  rw [truncf_apply, truncf_apply, shapeCast_1ab_ab_apply, shapeCast_1ab_ab_apply]

/-- The output payload at (u, r, d): the accumulator plus the second bias row. -/
theorem output_apply (cb : Vec Ideal S1x1x1024 .f32) (acc : Vec Ideal S512x1024 .f32) (u : Fin 1) (r : Fin 512) (d : Fin 1024) :
    k0_pay3 cb acc (ix3 u r d) = acc (ix2 r d) + cb (ix3 (0 : Fin 1) (0 : Fin 1) d) := by
  unfold k0_pay3
  rw [shapeCast_ab_1ab_apply, addf_apply, broadcastTo_1b_ab_apply, shapeCast_a_1a_apply, shapeCast_11a_a_apply]

end Cert.KernelIdeal.Payload

end
-- ==== Proof.Blocks.lean ====
/-
  The input blocks of a grid point, read at an index of the argument arrays.

  The grid is 8 experts by 4 row tiles by 8 hidden tiles, walked with the hidden tile fastest: point t is expert
  t / 32, row tile (t / 8) mod 4, hidden tile t mod 8. A block's element sits in its array, on each axis, at the block
  index times the block's size plus its own coordinate. So at point t the token block holds rows
  512 * ((t / 8) mod 4) + r of expert t / 32; either weight block and the first-bias block hold the hidden units
  512 * (t mod 8) + j of that expert; and the second-bias block holds that expert's whole bias row. The two biases reach
  the region through a reshape that only inserts a unit middle axis.
-/
import proofs.«153027_j75402445849115_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The grid has 256 points. -/
theorem lt256 (t : Fin cfg0.N) : t.val < 256 := lt_of_lt_of_eq t.isLt (show cfg0.N = 256 from N_0)

/-- Point t's expert; row r of its row tile as a row of the token array; unit j of its hidden tile as a hidden unit. -/
def eOf (t : Fin cfg0.N) : Fin 8 := ⟨t.val / 32, by have := lt256 t; omega⟩
def rowOf (t : Fin cfg0.N) (r : Fin 512) : Fin 2048 := ⟨((t.val / 8) % 4) * 512 + r.val, by have := r.isLt; omega⟩
def unitOf (t : Fin cfg0.N) (j : Fin 512) : Fin 4096 := ⟨512 * (t.val % 8) + j.val, by have := j.isLt; omega⟩

/-! ## The printed index maps in closed form, decided once over the grid -/

theorem idx0 : ∀ t : Fin cfg0.N, win0_0.index t (0 : Fin 3) = t.val / 32 ∧ win0_0.index t (1 : Fin 3) = (t.val / 8) % 4 ∧ win0_0.index t (2 : Fin 3) = 0 :=
  (by decide +kernel : ∀ t : Fin grid0.N, win0_0.index t (0 : Fin 3) = t.val / 32 ∧ win0_0.index t (1 : Fin 3) = (t.val / 8) % 4 ∧ win0_0.index t (2 : Fin 3) = 0)
theorem idx1 : ∀ t : Fin cfg0.N, win0_1.index t (0 : Fin 3) = t.val / 32 ∧ win0_1.index t (1 : Fin 3) = t.val % 8 ∧ win0_1.index t (2 : Fin 3) = 0 :=
  (by decide +kernel : ∀ t : Fin grid0.N, win0_1.index t (0 : Fin 3) = t.val / 32 ∧ win0_1.index t (1 : Fin 3) = t.val % 8 ∧ win0_1.index t (2 : Fin 3) = 0)
theorem idx2 : ∀ t : Fin cfg0.N, win0_2.index t (0 : Fin 3) = t.val / 32 ∧ win0_2.index t (1 : Fin 3) = 0 ∧ win0_2.index t (2 : Fin 3) = t.val % 8 :=
  (by decide +kernel : ∀ t : Fin grid0.N, win0_2.index t (0 : Fin 3) = t.val / 32 ∧ win0_2.index t (1 : Fin 3) = 0 ∧ win0_2.index t (2 : Fin 3) = t.val % 8)
theorem idx3 : ∀ t : Fin cfg0.N, win0_3.index t (0 : Fin 3) = t.val / 32 ∧ win0_3.index t (1 : Fin 3) = t.val % 8 ∧ win0_3.index t (2 : Fin 3) = 0 :=
  (by decide +kernel : ∀ t : Fin grid0.N, win0_3.index t (0 : Fin 3) = t.val / 32 ∧ win0_3.index t (1 : Fin 3) = t.val % 8 ∧ win0_3.index t (2 : Fin 3) = 0)
theorem idx4 : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)
theorem idx5 : ∀ t : Fin cfg0.N, win0_5.index t (0 : Fin 3) = t.val / 32 ∧ win0_5.index t (1 : Fin 3) = (t.val / 8) % 4 ∧ win0_5.index t (2 : Fin 3) = 0 :=
  (by decide +kernel : ∀ t : Fin grid0.N, win0_5.index t (0 : Fin 3) = t.val / 32 ∧ win0_5.index t (1 : Fin 3) = (t.val / 8) % 4 ∧ win0_5.index t (2 : Fin 3) = 0)

/-! ## The token block and the two weight blocks -/

/-- The token block at (u, r, k) is the token array at (expert, row, k). -/
theorem xblock_apply (c : Dev nD) (t : Fin cfg0.N) (u : Fin 1) (r : Fin 512) (k : Fin 1024) :
    (iblk m c 0 t : Vec F S1x512x1024 .f32) (ix3 u r k)
      = m ((c : Thread nD τ).loc main_arg0) (ix3 (eOf t) (rowOf t r) k) := by
  unfold iblk
  rw [View.read_apply]
  show V m c main_arg0 _ = _
  rw [V_main_arg0]
  congr 1
  funext a
  apply Fin.ext
  have hu : u.val = 0 := by omega
  match a with
  | ⟨0, _⟩ => show win0_0.index t 0 * 1 + 1 * u.val = t.val / 32; rw [(idx0 t).1]; omega
  | ⟨1, _⟩ => show win0_0.index t 1 * 512 + 1 * r.val = ((t.val / 8) % 4) * 512 + r.val; rw [(idx0 t).2.1]; omega
  | ⟨2, _⟩ => show win0_0.index t 2 * 1024 + 1 * k.val = k.val; rw [(idx0 t).2.2]; omega

/-- The first weight's block at (u, j, k) is that weight at (expert, hidden unit, k). -/
theorem w1block_apply (c : Dev nD) (t : Fin cfg0.N) (u : Fin 1) (j : Fin 512) (k : Fin 1024) :
    (iblk m c 1 t : Vec F S1x512x1024 .f32) (ix3 u j k)
      = m ((c : Thread nD τ).loc main_arg1) (ix3 (eOf t) (unitOf t j) k) := by
  unfold iblk
  rw [View.read_apply]
  show V m c main_arg1 _ = _
  rw [V_main_arg1]
  congr 1
  funext a
  apply Fin.ext
  have hu : u.val = 0 := by omega
  match a with
  | ⟨0, _⟩ => show win0_1.index t 0 * 1 + 1 * u.val = t.val / 32; rw [(idx1 t).1]; omega
  | ⟨1, _⟩ => show win0_1.index t 1 * 512 + 1 * j.val = 512 * (t.val % 8) + j.val; rw [(idx1 t).2.1]; omega
  | ⟨2, _⟩ => show win0_1.index t 2 * 1024 + 1 * k.val = k.val; rw [(idx1 t).2.2]; omega

/-- The second weight's block at (u, j, d) is that weight at (expert, hidden unit, d). -/
theorem w2block_apply (c : Dev nD) (t : Fin cfg0.N) (u : Fin 1) (j : Fin 512) (d : Fin 1024) :
    (iblk m c 3 t : Vec F S1x512x1024 .f32) (ix3 u j d)
      = m ((c : Thread nD τ).loc main_arg3) (ix3 (eOf t) (unitOf t j) d) := by
  unfold iblk
  rw [View.read_apply]
  show V m c main_arg3 _ = _
  rw [V_main_arg3]
  congr 1
  funext a
  apply Fin.ext
  have hu : u.val = 0 := by omega
  match a with
  | ⟨0, _⟩ => show win0_3.index t 0 * 1 + 1 * u.val = t.val / 32; rw [(idx3 t).1]; omega
  | ⟨1, _⟩ => show win0_3.index t 1 * 512 + 1 * j.val = 512 * (t.val % 8) + j.val; rw [(idx3 t).2.1]; omega
  | ⟨2, _⟩ => show win0_3.index t 2 * 1024 + 1 * d.val = d.val; rw [(idx3 t).2.2]; omega

/-! ## The two biases, through the reshape that inserts a unit middle axis -/

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The first bias as the region finds it. -/
theorem V_bias1 (c : Dev nD) :
    (V m c main_v0 : S8x1x4096.Idx → Elt F .f32)
      = shapeCast S8x1x4096 (m ((c : Thread nD τ).loc main_arg2)) Facts₀.shapeCasts_S8x4096_S8x1x4096 := by
  dsimp only [Gen.V, Gen.hostOps0]; after_results; rfl

/-- The second bias as the region finds it. -/
theorem V_bias2 (c : Dev nD) :
    (V m c main_v1 : S8x1x1024.Idx → Elt F .f32)
      = shapeCast S8x1x1024 (m ((c : Thread nD τ).loc main_arg4)) Facts₀.shapeCasts_S8x1024_S8x1x1024 := by
  dsimp only [Gen.V, Gen.hostOps0]; after_results; rfl

/-- The first bias's block at (u, v, j) is that bias at (expert, hidden unit). -/
theorem b1block_apply (c : Dev nD) (t : Fin cfg0.N) (u v : Fin 1) (j : Fin 512) :
    (iblk m c 2 t : Vec F S1x1x512 .f32) (ix3 u v j)
      = m ((c : Thread nD τ).loc main_arg2) (ix2 (eOf t) (unitOf t j)) := by
  unfold iblk
  rw [View.read_apply]
  show V m c main_v0 _ = _
  rw [V_bias1]
  refine Eq.trans ?_ (shapeCast_ab_a1b_apply _ Facts₀.shapeCasts_S8x4096_S8x1x4096 (eOf t) (0 : Fin 1) (unitOf t j))
  congr 1
  funext a
  apply Fin.ext
  have hu : u.val = 0 := by omega
  have hv : v.val = 0 := by omega
  match a with
  | ⟨0, _⟩ => show win0_2.index t 0 * 1 + 1 * u.val = t.val / 32; rw [(idx2 t).1]; omega
  | ⟨1, _⟩ => show win0_2.index t 1 * 1 + 1 * v.val = 0; rw [(idx2 t).2.1]; omega
  | ⟨2, _⟩ => show win0_2.index t 2 * 512 + 1 * j.val = 512 * (t.val % 8) + j.val; rw [(idx2 t).2.2]; omega

/-- The second bias's block at (u, v, d) is that bias at (expert, d). -/
theorem b2block_apply (c : Dev nD) (t : Fin cfg0.N) (u v : Fin 1) (d : Fin 1024) :
    (iblk m c 4 t : Vec F S1x1x1024 .f32) (ix3 u v d)
      = m ((c : Thread nD τ).loc main_arg4) (ix2 (eOf t) d) := by
  unfold iblk
  rw [View.read_apply]
  show V m c main_v1 _ = _
  rw [V_bias2]
  refine Eq.trans ?_ (shapeCast_ab_a1b_apply _ Facts₀.shapeCasts_S8x1024_S8x1x1024 (eOf t) (0 : Fin 1) d)
  congr 1
  funext a
  apply Fin.ext
  have hu : u.val = 0 := by omega
  have hv : v.val = 0 := by omega
  match a with
  | ⟨0, _⟩ => show win0_4.index t 0 * 1 + 1 * u.val = t.val / 32; rw [(idx4 t).1]; omega
  | ⟨1, _⟩ => show win0_4.index t 1 * 1 + 1 * v.val = 0; rw [(idx4 t).2.1]; omega
  | ⟨2, _⟩ => show win0_4.index t 2 * 1024 + 1 * d.val = d.val; rw [(idx4 t).2.2]; omega

end Cert.KernelIdeal.Blocks

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.Spec.lean ====
/-
  The function both programs compute, over the extended reals.

  For expert e, row r and output column d:

      out (e, r, d) = ( sum over the 4096 hidden units h of  act (e, r, h) * w2 (e, h, d) )  +  b2 (e, d),
      act (e, r, h) = max ( (sum over k of x (e, r, k) * w1 (e, h, k)) + b1 (e, h) )  0.

  The hidden sum may be taken in eight consecutive tiles of 512 units, each tile's sum added in turn to a running total
  that starts at zero: addition of extended reals is commutative and associative (an infinity changes nothing of that),
  so the grouping does not matter and no finiteness of the inputs is needed.
-/
import Idealize.ShloMosaic.Lib.ValueIdx
import Idealize.ShloMosaic.PureOps.Ideal.Laws
import proofs.«153027_j75402445849115_1_alg».proof.Proof.LibSumBlocks

noncomputable section

namespace Cert.ExpertMlp

open Idealize.ShloMosaic Idealize.ShloMosaic.ValueIdx

/-- The shapes of the five arguments (tokens and result; either weight; the two biases). -/
abbrev Tok : Shape := ⟨3, ![8, 2048, 1024]⟩
abbrev Wgt : Shape := ⟨3, ![8, 4096, 1024]⟩
abbrev Bias1 : Shape := ⟨2, ![8, 4096]⟩
abbrev Bias2 : Shape := ⟨2, ![8, 1024]⟩

variable (x : Tok.Idx → EReal) (w1 : Wgt.Idx → EReal) (b1 : Bias1.Idx → EReal) (w2 : Wgt.Idx → EReal) (b2 : Bias2.Idx → EReal)

/-- The float zero both programs clamp against and start sums from, as the word they spell it with. -/
abbrev zeroWord : EReal := Ideal.ofBits .f32 0x00000000#32

/-- Hidden unit h of expert e on row r, rectified. -/
def act (e : Fin 8) (r : Fin 2048) (h : Fin 4096) : EReal :=
  max ((∑ k : Fin 1024, x (ix3 e r k) * w1 (ix3 e h k)) + b1 (ix2 e h)) zeroWord

/-- What hidden unit h adds to output column d. -/
def term (e : Fin 8) (r : Fin 2048) (d : Fin 1024) (h : Fin 4096) : EReal :=
  act x w1 b1 e r h * w2 (ix3 e h d)

/-- THE RESULT: every hidden unit's term, plus the second bias. -/
def mlp : Tok.Idx → EReal := fun i =>
  (∑ h : Fin 4096, term x w1 b1 w2 (i 0) (i 1) (i 2) h) + b2 (ix2 (i 0) (i 2))

/-- Hidden unit j of tile s. -/
abbrev unit (s : Fin 8) (j : Fin 512) : Fin 4096 := ⟨512 * s.val + j.val, by have := s.isLt; have := j.isLt; omega⟩

/-- The sum of the terms of hidden tile s (zero past the eighth tile, which no point reads). -/
def tile (e : Fin 8) (r : Fin 2048) (d : Fin 1024) (s : ℕ) : EReal :=
  if hs : s < 8 then ∑ j : Fin 512, term x w1 b1 w2 e r d (unit ⟨s, hs⟩ j) else 0

/-- The running total after tiles 0 … n - 1, from the zero word. -/
def running (e : Fin 8) (r : Fin 2048) (d : Fin 1024) (n : ℕ) : EReal :=
  zeroWord + ∑ s ∈ Finset.range n, tile x w1 b1 w2 e r d s

theorem running_succ (e : Fin 8) (r : Fin 2048) (d : Fin 1024) (n : ℕ) :
    running x w1 b1 w2 e r d (n + 1) = running x w1 b1 w2 e r d n + tile x w1 b1 w2 e r d n := by
  unfold running
  rw [Finset.sum_range_succ, add_assoc]

theorem running_one (e : Fin 8) (r : Fin 2048) (d : Fin 1024) :
    running x w1 b1 w2 e r d 1 = zeroWord + tile x w1 b1 w2 e r d 0 := by
  unfold running
  rw [Finset.sum_range_one]

/-- All eight tiles make the whole hidden sum. -/
theorem running_eight (e : Fin 8) (r : Fin 2048) (d : Fin 1024) :
    running x w1 b1 w2 e r d 8 = ∑ h : Fin 4096, term x w1 b1 w2 e r d h := by
  unfold running
  rw [show zeroWord = (0 : EReal) from Ideal.ofBits_zero_f32, zero_add,
    Cert.LibSumBlocks.sum_blocks (a := 8) (b := 512) (n := 4096) rfl (term x w1 b1 w2 e r d) unit (fun _ _ => rfl),
    ← Fin.sum_univ_eq_sum_range (fun s => tile x w1 b1 w2 e r d s) 8]
  refine Finset.sum_congr rfl fun s _ => ?_
  unfold tile
  rw [dif_pos s.isLt]

end Cert.ExpertMlp

end
-- ==== Proof.Fold.lean ====
/-
  What the accumulator and the output block hold after each grid point.

  Within the run of the eight hidden tiles of one (expert, row tile) the accumulator is, after hidden tile s, the
  running total of tiles 0 … s of the specification: the first point stores zeros and adds tile 0, every later point
  adds its own tile to what the point before left — an induction on the point, in which the point before a point that
  is not a run's first belongs to the same expert and row tile. At the run's last point the output block is that
  total — by then the whole hidden sum — plus the second bias: the specification's value.
-/
import proofs.«153027_j75402445849115_1_alg».proof.Proof.Pieces
import proofs.«153027_j75402445849115_1_alg».proof.Proof.Payload
import proofs.«153027_j75402445849115_1_alg».proof.Proof.Blocks
import proofs.«153027_j75402445849115_1_alg».proof.Proof.Spec

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Blocks Cert.ExpertMlp

variable (m : (ℓ : Loc nD τ sig) → Buf (Elt Ideal) ℓ)

/-- The five argument arrays of core c, at the specification's types. -/
abbrev X (c : Dev nD) : Tok.Idx → EReal := m ((c : Thread nD τ).loc main_arg0)
abbrev W1 (c : Dev nD) : Wgt.Idx → EReal := m ((c : Thread nD τ).loc main_arg1)
abbrev B1 (c : Dev nD) : Bias1.Idx → EReal := m ((c : Thread nD τ).loc main_arg2)
abbrev W2 (c : Dev nD) : Wgt.Idx → EReal := m ((c : Thread nD τ).loc main_arg3)
abbrev B2 (c : Dev nD) : Bias2.Idx → EReal := m ((c : Thread nD τ).loc main_arg4)

/-- ONE POINT'S STEP: the accumulate payload of point t's blocks over any accumulator adds, at (r, d), the point's
    hidden tile of the specification at the point's expert and row. -/
theorem step_apply (c : Dev nD) (t : Fin cfg0.N) (acc : Vec Ideal S512x1024 .f32) (r : Fin 512) (d : Fin 1024) :
    k0_pay2 (iblk m c 0 t) (iblk m c 1 t) (iblk m c 2 t) (iblk m c 3 t) acc (ix2 r d)
      = acc (ix2 r d) + tile (X m c) (W1 m c) (B1 m c) (W2 m c) (eOf t) (rowOf t r) d (t.val % 8) := by
  refine (Payload.accumulate_apply (iblk m c 0 t) (iblk m c 1 t) (iblk m c 2 t) (iblk m c 3 t) acc r d).trans ?_
  refine congrArg (acc (ix2 r d) + ·) ?_
  unfold tile
  rw [dif_pos (show t.val % 8 < 8 by omega)]
  refine Finset.sum_congr rfl fun j _ => ?_
  unfold Payload.hid term act
  simp only [xblock_apply, w1block_apply, w2block_apply, b1block_apply]
  rfl

/-- A run's first point: zeros, then the first tile. -/
theorem after_first (c : Dev nD) (t : Fin cfg0.N) (h0 : t.val % 8 = 0) (h1 : ¬t.val % 8 = 7) (r : Fin 512) (d : Fin 1024) :
    (outsAt0 m c t.val t.isLt).2 (ix2 r d) = zeroWord + tile (X m c) (W1 m c) (B1 m c) (W2 m c) (eOf t) (rowOf t r) d (t.val % 8) := by
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 r d)).trans ?_
  refine (step_apply m c t (k0_pay1 (F := Ideal)) r d).trans ?_
  rw [Payload.reset_apply]

/-- A middle point: the point before's accumulator plus this point's tile. -/
theorem after_middle (c : Dev nD) (t : Fin cfg0.N) (h0 : ¬t.val % 8 = 0) (h1 : ¬t.val % 8 = 7) (r : Fin 512) (d : Fin 1024) :
    (outsAt0 m c t.val t.isLt).2 (ix2 r d)
      = (outsAt0 m c (t.val - 1) (Nat.lt_of_le_of_lt (Nat.sub_le _ _) t.isLt)).2 (ix2 r d) + tile (X m c) (W1 m c) (B1 m c) (W2 m c) (eOf t) (rowOf t r) d (t.val % 8) := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 r d)).trans ?_
  exact step_apply m c t _ r d

/-- A run's last point: the same step … -/
theorem after_last (c : Dev nD) (t : Fin cfg0.N) (h0 : ¬t.val % 8 = 0) (h1 : t.val % 8 = 7) (r : Fin 512) (d : Fin 1024) :
    (outsAt0 m c t.val t.isLt).2 (ix2 r d)
      = (outsAt0 m c (t.val - 1) (Nat.lt_of_le_of_lt (Nat.sub_le _ _) t.isLt)).2 (ix2 r d) + tile (X m c) (W1 m c) (B1 m c) (W2 m c) (eOf t) (rowOf t r) d (t.val % 8) := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 r d)).trans ?_
  exact step_apply m c t _ r d

/-- … and the output block is the new accumulator plus the expert's second bias. -/
theorem out_last (c : Dev nD) (t : Fin cfg0.N) (h0 : ¬t.val % 8 = 0) (h1 : t.val % 8 = 7) (u : Fin 1) (r : Fin 512) (d : Fin 1024) :
    (outsAt0 m c t.val t.isLt).1 (ix3 u r d)
      = (outsAt0 m c t.val t.isLt).2 (ix2 r d) + B2 m c (ix2 (eOf t) d) := by
  rw [outsAt0_C m c t h0 h1]
  dsimp only
  rw [Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix3 u r d)).trans ?_
  refine (Payload.output_apply (iblk m c 4 t) _ u r d).trans ?_
  rw [b2block_apply m c t 0 0 d]

/-- THE FOLD: after point n the accumulator is the running total of the hidden tiles 0 … n mod 8 of the point's expert
    and row tile. -/
theorem scratch_eq (c : Dev nD) : ∀ (n : ℕ) (h : n < cfg0.N) (r : Fin 512) (d : Fin 1024),
    (outsAt0 m c n h).2 (ix2 r d) = running (X m c) (W1 m c) (B1 m c) (W2 m c) (eOf ⟨n, h⟩) (rowOf ⟨n, h⟩ r) d (n % 8 + 1)
  | 0, h, r, d => by
    refine (after_first m c ⟨0, h⟩ rfl (show ¬(0 % 8 = 7) by decide) r d).trans ?_
    exact (running_one (X m c) (W1 m c) (B1 m c) (W2 m c) (eOf ⟨0, h⟩) (rowOf ⟨0, h⟩ r) d).symm
  | n + 1, h, r, d => by
    have hN : n + 1 < 256 := lt256 ⟨n + 1, h⟩
    by_cases h0 : (n + 1) % 8 = 0
    · refine (after_first m c ⟨n + 1, h⟩ h0 (show ¬((n + 1) % 8 = 7) by omega) r d).trans ?_
      show zeroWord + tile (X m c) (W1 m c) (B1 m c) (W2 m c) (eOf ⟨n + 1, h⟩) (rowOf ⟨n + 1, h⟩ r) d ((n + 1) % 8)
        = running (X m c) (W1 m c) (B1 m c) (W2 m c) (eOf ⟨n + 1, h⟩) (rowOf ⟨n + 1, h⟩ r) d ((n + 1) % 8 + 1)
      rw [h0]
      exact (running_one (X m c) (W1 m c) (B1 m c) (W2 m c) (eOf ⟨n + 1, h⟩) (rowOf ⟨n + 1, h⟩ r) d).symm
    · have step : (outsAt0 m c (n + 1) h).2 (ix2 r d)
          = (outsAt0 m c n (Nat.lt_of_succ_lt h)).2 (ix2 r d) + tile (X m c) (W1 m c) (B1 m c) (W2 m c) (eOf ⟨n + 1, h⟩) (rowOf ⟨n + 1, h⟩ r) d ((n + 1) % 8) := by
        by_cases h1 : (n + 1) % 8 = 7
        · exact after_last m c ⟨n + 1, h⟩ h0 h1 r d
        · exact after_middle m c ⟨n + 1, h⟩ h0 h1 r d
      rw [step, scratch_eq c n (Nat.lt_of_succ_lt h) r d]
      have he : eOf ⟨n, Nat.lt_of_succ_lt h⟩ = eOf ⟨n + 1, h⟩ := Fin.ext (by show n / 32 = (n + 1) / 32; omega)
      have hr : rowOf ⟨n, Nat.lt_of_succ_lt h⟩ r = rowOf ⟨n + 1, h⟩ r :=
        Fin.ext (by show (n / 8) % 4 * 512 + r.val = ((n + 1) / 8) % 4 * 512 + r.val; omega)
      have hm : (n + 1) % 8 = n % 8 + 1 := by omega
      rw [he, hr, hm]
      exact (running_succ (X m c) (W1 m c) (B1 m c) (W2 m c) (eOf ⟨n + 1, h⟩) (rowOf ⟨n + 1, h⟩ r) d (n % 8 + 1)).symm

/-- THE OUTPUT BLOCK at a run's last point is the specification at the point's expert and rows. -/
theorem out_eq (c : Dev nD) (t : Fin cfg0.N) (h1 : t.val % 8 = 7) (u : Fin 1) (r : Fin 512) (d : Fin 1024) :
    (outsAt0 m c t.val t.isLt).1 (ix3 u r d)
      = mlp (X m c) (W1 m c) (B1 m c) (W2 m c) (B2 m c) (ix3 (eOf t) (rowOf t r) d) := by
  rw [out_last m c t (by omega) h1 u r d, scratch_eq m c t.val t.isLt r d, h1]
  show running (X m c) (W1 m c) (B1 m c) (W2 m c) (eOf t) (rowOf t r) d 8 + _ = _
  rw [running_eight]
  rfl

end Cert.KernelIdeal.Fold

end
-- ==== Proof.Result.lean ====
/-
  The result array after the run.

  The output window is written back only at the last hidden tile of each (expert, row tile), and there its block is the
  specification restricted to that expert's 512 rows of the tile. Every index (e, row, d) of the result lies in the block
  of the point  32 e + 8 (row / 512) + 7,  which is such a last tile; so the array ends holding the specification of the
  five argument arrays, and the run leaves the arguments as they were.
-/
import proofs.«153027_j75402445849115_1_alg».proof.Proof.Fold
import proofs.«153027_j75402445849115_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Fold Cert.ExpertMlp

variable (m : (ℓ : Loc nD τ sig) → Buf (Elt Ideal) ℓ) (ρ : Dev nD → PrngReg)

/-- The specification of core c's five argument arrays, as contents of the result array. -/
abbrev result (c : Dev nD) : Buf (Elt Ideal) ((c : Thread nD τ).loc main_v2) := mlp (X m c) (W1 m c) (B1 m c) (W2 m c) (B2 m c)

/-- The output block at a run's last point, at any index of the block. -/
theorem out_block (c : Dev nD) (t : Fin cfg0.N) (h1 : t.val % 8 = 7) (y : S1x512x1024.Idx) :
    (outsAt0 m c t.val t.isLt).1 y = mlp (X m c) (W1 m c) (B1 m c) (W2 m c) (B2 m c) (ix3 (eOf t) (rowOf t (y 1)) (y 2)) := by
  obtain ⟨u, r, d, rfl⟩ : ∃ (u : Fin 1) (r : Fin 512) (d : Fin 1024), y = ix3 u r d := ⟨y 0, y 1, y 2, eq_ix3 y⟩
  exact out_eq m c t h1 u r d

/-- WHAT A WRITE-BACK WRITES is the block of the specification at the point's expert and row tile. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  rw [Value.flushed5]
  refine funext fun (y : S1x512x1024.Idx) => ?_
  show (outsAt0 m c t.val t.isLt).1 y = result m c (((cfg0.win 5).blk t).view.emb y)
  rw [out_block m c t h7 y]
  show mlp (X m c) (W1 m c) (B1 m c) (W2 m c) (B2 m c) (ix3 (eOf t) (rowOf t (y 1)) (y 2)) = mlp (X m c) (W1 m c) (B1 m c) (W2 m c) (B2 m c) (((cfg0.win 5).blk t).view.emb y)
  congr 1
  funext a
  apply Fin.ext
  have hu : (y 0).val < 1 := (y 0).isLt
  match a with
  | ⟨0, _⟩ => show t.val / 32 = win0_5.index t 0 * 1 + 1 * (y 0).val; rw [(idx5 t).1]; omega
  | ⟨1, _⟩ => show ((t.val / 8) % 4) * 512 + (y 1).val = win0_5.index t 1 * 512 + 1 * (y 1).val; rw [(idx5 t).2.1]; omega
  | ⟨2, _⟩ => show (y 2).val = win0_5.index t 2 * 1024 + 1 * (y 2).val; rw [(idx5 t).2.2]; omega

/-- An index of the result is in point t's block iff each coordinate is in the block's range on its axis. -/
theorem mem_block (t : Fin cfg0.N) (i : S8x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v2).slice (win0_5.rect t)).set ↔ _
  rw [View.set_slice_whole, Rect.mem_set_unit]
  exact Iff.rfl

/-- The point that writes index i back: its expert's and row tile's last hidden tile. -/
def pointOf (i : S8x2048x1024.Idx) : Fin cfg0.N :=
  ⟨(i 0).val * 32 + (i 1).val / 512 * 8 + 7,
    Nat.lt_of_lt_of_eq (by have h0 : (i 0).val < 8 := (i 0).isLt; have h1 : (i 1).val < 2048 := (i 1).isLt; omega) (show (256 : ℕ) = cfg0.N from N_0.symm)⟩

/-- Every index of the result is in some written-back block. -/
theorem cover (i : S8x2048x1024.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  have hv : (pointOf i).val = (i 0).val * 32 + (i 1).val / 512 * 8 + 7 := rfl
  refine ⟨pointOf i, (flush0_5 _).mpr (by rw [hv]; omega), ?_⟩
  rw [mem_block]
  obtain ⟨e0, e1, e2⟩ := idx5 (pointOf i)
  intro a
  match a with
  | ⟨0, _⟩ => show win0_5.index (pointOf i) 0 * 1 ≤ (i 0).val ∧ (i 0).val < win0_5.index (pointOf i) 0 * 1 + 1; rw [e0, hv]; omega
  | ⟨1, _⟩ => show win0_5.index (pointOf i) 1 * 512 ≤ (i 1).val ∧ (i 1).val < win0_5.index (pointOf i) 1 * 512 + 512; rw [e1, hv]; omega
  | ⟨2, _⟩ => show win0_5.index (pointOf i) 2 * 1024 ≤ (i 2).val ∧ (i 2).val < win0_5.index (pointOf i) 2 * 1024 + 1024; rw [e2]; omega

/-- THE RESULT ARRAY after the run is the specification. -/
theorem final (c : Dev nD) : (dats m 0 c).arrAt 5 cfg0.N = result m c :=
  (dats m 0 c).arrAt_eq_of_cover 5 (result m c) (flushed_eq m c) cover

/-- THE KERNEL'S RUN: the result array at the specification of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefValue.lean ====
/-
  The reference is the specification.

  Read one operation at a time, the reference's result at (e, r, d) is the batched product over the 4096 hidden units of
  the rectified first layer with the second weight, plus the second bias broadcast along the rows; and the rectified
  first layer at (e, r, h) is the batched product over k of the tokens with the first weight, plus the first bias
  broadcast along the rows, clamped against the zero constant. The broadcasts only drop the row coordinate, so the
  operands' indices are the specification's own.
-/
import proofs.«153027_j75402445849115_1_alg».proof.Proof.Gen.ReferenceIdeal.Read
import proofs.«153027_j75402445849115_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.ExpertMlp

/-- The operands' indices the stages read, as the specification writes them. -/
theorem lhs_hidden (e : Fin 8) (r : Fin 2048) (d : Fin 1024) (h : Fin 4096) :
    lidx_main_v5 (ix3 e r d) h = ix3 e r h := funext fun a => by match a with | ⟨0, _⟩ => rfl | ⟨1, _⟩ => rfl | ⟨2, _⟩ => rfl
theorem rhs_hidden (e : Fin 8) (r : Fin 2048) (d : Fin 1024) (h : Fin 4096) :
    ridx_main_v5 (ix3 e r d) h = ix3 e h d := funext fun a => by match a with | ⟨0, _⟩ => rfl | ⟨1, _⟩ => rfl | ⟨2, _⟩ => rfl
theorem lhs_first (e : Fin 8) (r : Fin 2048) (h : Fin 4096) (k : Fin 1024) :
    lidx_main_v0 (ix3 e r h) k = ix3 e r k := funext fun a => by match a with | ⟨0, _⟩ => rfl | ⟨1, _⟩ => rfl | ⟨2, _⟩ => rfl
theorem rhs_first (e : Fin 8) (r : Fin 2048) (h : Fin 4096) (k : Fin 1024) :
    ridx_main_v0 (ix3 e r h) k = ix3 e h k := funext fun a => by match a with | ⟨0, _⟩ => rfl | ⟨1, _⟩ => rfl | ⟨2, _⟩ => rfl
theorem bias1_idx (e : Fin 8) (r : Fin 2048) (h : Fin 4096) :
    idx_main_v1 (idx_main_v2 (ix3 e r h)) = ix2 e h := funext fun a => by match a with | ⟨0, _⟩ => rfl | ⟨1, _⟩ => rfl
theorem bias2_idx (e : Fin 8) (r : Fin 2048) (d : Fin 1024) :
    idx_main_v6 (idx_main_v7 (ix3 e r d)) = ix2 e d := funext fun a => by match a with | ⟨0, _⟩ => rfl | ⟨1, _⟩ => rfl

/-- The rectified first layer at (e, r, h). -/
theorem hidden_apply (x0 : Tok.Idx → EReal) (x1 : Wgt.Idx → EReal) (x2 : Bias1.Idx → EReal) (e : Fin 8) (r : Fin 2048) (h : Fin 4096) :
    val_main_v4 (F := Ideal) x0 x1 x2 (ix3 e r h) = act x0 x1 x2 e r h := by
  rw [val_main_v4_apply, val_main_v3_apply, val_main_v0_apply, val_main_v2_apply, val_main_v1_apply,
    val_main_call0_v0_apply, val_main_call0_cst_apply, bias1_idx]
  unfold act
  simp only [lhs_first, rhs_first]
  rfl

/-- THE REFERENCE'S RESULT IS THE SPECIFICATION of its five arguments. -/
theorem result_eq (x0 : Tok.Idx → EReal) (x1 : Wgt.Idx → EReal) (x2 : Bias1.Idx → EReal) (x3 : Wgt.Idx → EReal) (x4 : Bias2.Idx → EReal) :
    val_main_v8 (F := Ideal) x0 x1 x2 x3 x4 = mlp x0 x1 x2 x3 x4 := by
  funext i
  obtain ⟨e, r, d, rfl⟩ : ∃ (e : Fin 8) (r : Fin 2048) (d : Fin 1024), i = ix3 e r d := ⟨i 0, i 1, i 2, eq_ix3 i⟩
  rw [val_main_v8_apply, val_main_v5_apply, val_main_v7_apply, val_main_v6_apply, bias2_idx]
  unfold mlp term
  simp only [lhs_hidden, rhs_hidden, hidden_apply]
  rfl

end Cert.ReferenceIdeal.RefValue

end
-- ==== Proof.lean ====
/-
  Eight experts, each a two-layer perceptron applied to its own 2048 token rows:

      out (e, r, d) = ( sum over the 4096 hidden units h of  max (x (e, r, ·) · w1 (e, h, ·) + b1 (e, h)) 0  *  w2 (e, h, d) )  +  b2 (e, d).

  The kernel walks a grid of 8 experts by 4 row tiles of 512 rows by 8 hidden tiles of 512 units, the hidden tile
  fastest. At each point it forms the rectified hidden slab of its row tile and hidden tile, multiplies it by the
  matching slab of the second weight and adds the product to a [512, 1024] accumulator it keeps across the eight
  hidden tiles; it zeroes the accumulator at the first hidden tile and, at the last, writes the accumulator plus the
  second bias to the output block. Its operands are narrowed to bf16 before each product, which over the extended
  reals changes nothing, and a matrix-unit product into a zero accumulator is a plain sum. The reference computes the
  same thing with two batched products over whole arrays.

  So both sides are the one function of Proof/Spec.lean: the kernel's accumulator after hidden tile s is the running
  total of tiles 0 … s (Proof/Fold.lean, an induction on the grid point over the payloads of Proof/Payload.lean and the
  block reads of Proof/Blocks.lean), the eight tiles make the whole hidden sum because addition of extended reals is
  commutative and associative (Proof/Spec.lean, no finiteness needed), the written-back blocks tile the result
  (Proof/Result.lean), and the reference's stages read at an index are the specification's terms (Proof/RefValue.lean).
  The three frames are the programs' runs with the value dropped; the idealization rewrote nothing.
-/
import proofs.«153027_j75402445849115_1_alg».proof.Defs
import proofs.«153027_j75402445849115_1_alg».proof.Proof.Gen.Kernel
import proofs.«153027_j75402445849115_1_alg».proof.Proof.Gen.Kernel.Skeleton
import proofs.«153027_j75402445849115_1_alg».proof.Proof.Gen.Kernel.Launch
import proofs.«153027_j75402445849115_1_alg».proof.Proof.Gen.Kernel.Points
import proofs.«153027_j75402445849115_1_alg».proof.Proof.Gen.Kernel.Frame
import proofs.«153027_j75402445849115_1_alg».proof.Proof.Gen.KernelIdeal
import proofs.«153027_j75402445849115_1_alg».proof.Proof.Gen.KernelIdeal.Skeleton
import proofs.«153027_j75402445849115_1_alg».proof.Proof.Gen.KernelIdeal.Launch
import proofs.«153027_j75402445849115_1_alg».proof.Proof.Gen.KernelIdeal.Points
import proofs.«153027_j75402445849115_1_alg».proof.Proof.Gen.KernelIdeal.Frame
import proofs.«153027_j75402445849115_1_alg».proof.Proof.Gen.ReferenceIdeal
import proofs.«153027_j75402445849115_1_alg».proof.Proof.Gen.Pre_finite_inputs
import proofs.«153027_j75402445849115_1_alg».proof.Proof.Gen.KernelIdeal.Value
import proofs.«153027_j75402445849115_1_alg».proof.Proof.Gen.ReferenceIdeal.Run
import proofs.«153027_j75402445849115_1_alg».proof.Proof.Gen.ReferenceIdeal.Read
import proofs.«153027_j75402445849115_1_alg».proof.Proof.Result
import proofs.«153027_j75402445849115_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the specification of its arguments, and the reference's
    at the specification of arguments that agree with them. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
